-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1536 : Shape := ⟨2, ![32, 1536]⟩
abbrev S1536x5 : Shape := ⟨2, ![1536, 5]⟩
abbrev S5 : Shape := ⟨1, ![5]⟩
abbrev S1536x3 : Shape := ⟨2, ![1536, 3]⟩
abbrev S3 : Shape := ⟨1, ![3]⟩
abbrev S1536x256 : Shape := ⟨2, ![1536, 256]⟩
abbrev S256 : Shape := ⟨1, ![256]⟩
abbrev S256x5 : Shape := ⟨2, ![256, 5]⟩
abbrev S_ : Shape := ⟨0, ![]⟩

class Facts : Prop where
  bcast_S_S32x1536 : S_.BroadcastsInDim S32x1536 (![] : Fin 0 → Fin S32x1536.rank)
  reducesTo_S32x1536_S_d0_1 : S32x1536.ReducesTo [0, 1] S_
  h_S_ : 0 < S_.numel
  bcast_S_S1536x5 : S_.BroadcastsInDim S1536x5 (![] : Fin 0 → Fin S1536x5.rank)
  reducesTo_S1536x5_S_d0_1 : S1536x5.ReducesTo [0, 1] S_
  bcast_S_S5 : S_.BroadcastsInDim S5 (![] : Fin 0 → Fin S5.rank)
  reducesTo_S5_S_d0 : S5.ReducesTo [0] S_
  bcast_S_S1536x3 : S_.BroadcastsInDim S1536x3 (![] : Fin 0 → Fin S1536x3.rank)
  reducesTo_S1536x3_S_d0_1 : S1536x3.ReducesTo [0, 1] S_
  bcast_S_S3 : S_.BroadcastsInDim S3 (![] : Fin 0 → Fin S3.rank)
  reducesTo_S3_S_d0 : S3.ReducesTo [0] S_
  bcast_S_S1536x256 : S_.BroadcastsInDim S1536x256 (![] : Fin 0 → Fin S1536x256.rank)
  reducesTo_S1536x256_S_d0_1 : S1536x256.ReducesTo [0, 1] S_
  bcast_S_S256 : S_.BroadcastsInDim S256 (![] : Fin 0 → Fin S256.rank)
  reducesTo_S256_S_d0 : S256.ReducesTo [0] S_
  bcast_S_S256x5 : S_.BroadcastsInDim S256x5 (![] : Fin 0 → Fin S256x5.rank)
  reducesTo_S256x5_S_d0_1 : S256x5.ReducesTo [0, 1] S_

variable [Facts]

def fn_part2 {F : FTy → Type} [FloatOps F] (main_arg7 : FVec F S256x5 .f32) (main_arg8 : FVec F S5 .f32) (main_v33 : IVec S_ 1) : IVec S_ 1 :=
  let main_v34 : FVec F S256x5 .f32 := Host.absf main_arg7
  let main_cst_12 : FVec F S_ .f32 := constant S_ .f32 0x7F800000#32
  let main_v35 : FVec F S256x5 .f32 := broadcastInDim S256x5 ![] bcast_S_S256x5 main_cst_12
  let main_v36 : IVec S256x5 1 := cmpf .olt main_v34 main_v35
  let main_c_13 : IVec S_ 1 := constantI S_ 1 1#1
  let main_v37 : IVec S_ 1 := (fun x v => Host.reduce IntOp.andi x v reducesTo_S256x5_S_d0_1 h_S_) main_v36 main_c_13
  let main_v38 : IVec S_ 1 := andi main_v33 main_v37
  let main_v39 : FVec F S5 .f32 := Host.absf main_arg8
  let main_cst_14 : FVec F S_ .f32 := constant S_ .f32 0x7F800000#32
  let main_v40 : FVec F S5 .f32 := broadcastInDim S5 ![] bcast_S_S5 main_cst_14
  let main_v41 : IVec S5 1 := cmpf .olt main_v39 main_v40
  let main_c_15 : IVec S_ 1 := constantI S_ 1 1#1
  let main_v42 : IVec S_ 1 := (fun x v => Host.reduce IntOp.andi x v reducesTo_S5_S_d0 h_S_) main_v41 main_c_15
  let main_v43 : IVec S_ 1 := andi main_v38 main_v42
  main_v43

def fn_part1 {F : FTy → Type} [FloatOps F] (main_arg4 : FVec F S3 .f32) (main_arg5 : FVec F S1536x256 .f32) (main_arg6 : FVec F S256 .f32) (main_arg7 : FVec F S256x5 .f32) (main_arg8 : FVec F S5 .f32) (main_v13 : IVec S_ 1) (main_v16 : IVec S1536x3 1) : IVec S_ 1 :=
  let main_c_5 : IVec S_ 1 := constantI S_ 1 1#1
  let main_v17 : IVec S_ 1 := (fun x v => Host.reduce IntOp.andi x v reducesTo_S1536x3_S_d0_1 h_S_) main_v16 main_c_5
  let main_v18 : IVec S_ 1 := andi main_v13 main_v17
  let main_v19 : FVec F S3 .f32 := Host.absf main_arg4
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : FVec F S1536x256 .f32 := Host.absf main_arg5
  let main_cst_8 : FVec F S_ .f32 := constant S_ .f32 0x7F800000#32
  let main_v25 : FVec F S1536x256 .f32 := broadcastInDim S1536x256 ![] bcast_S_S1536x256 main_cst_8
  let main_v26 : IVec S1536x256 1 := cmpf .olt main_v24 main_v25
  let main_c_9 : IVec S_ 1 := constantI S_ 1 1#1
  let main_v27 : IVec S_ 1 := (fun x v => Host.reduce IntOp.andi x v reducesTo_S1536x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S32x1536 .f32) (main_arg1 : FVec F S1536x5 .f32) (main_arg2 : FVec F S5 .f32) (main_arg3 : FVec F S1536x3 .f32) (main_arg4 : FVec F S3 .f32) (main_arg5 : FVec F S1536x256 .f32) (main_arg6 : FVec F S256 .f32) (main_arg7 : FVec F S256x5 .f32) (main_arg8 : FVec F S5 .f32) : IVec S_ 1 :=
  let main_v0 : FVec F S32x1536 .f32 := Host.absf main_arg0
  let main_cst : FVec F S_ .f32 := constant S_ .f32 0x7F800000#32
  let main_v1 : FVec F S32x1536 .f32 := broadcastInDim S32x1536 ![] bcast_S_S32x1536 main_cst
  let main_v2 : IVec S32x1536 1 := cmpf .olt main_v0 main_v1
  let main_c : IVec S_ 1 := constantI S_ 1 1#1
  let main_v3 : IVec S_ 1 := (fun x v => Host.reduce IntOp.andi x v reducesTo_S32x1536_S_d0_1 h_S_) main_v2 main_c
  let main_v4 : FVec F S1536x5 .f32 := Host.absf main_arg1
  let main_cst_0 : FVec F S_ .f32 := constant S_ .f32 0x7F800000#32
  let main_v5 : FVec F S1536x5 .f32 := broadcastInDim S1536x5 ![] bcast_S_S1536x5 main_cst_0
  let main_v6 : IVec S1536x5 1 := cmpf .olt main_v4 main_v5
  let main_c_1 : IVec S_ 1 := constantI S_ 1 1#1
  let main_v7 : IVec S_ 1 := (fun x v => Host.reduce IntOp.andi x v reducesTo_S1536x5_S_d0_1 h_S_) main_v6 main_c_1
  let main_v8 : IVec S_ 1 := andi main_v3 main_v7
  let main_v9 : FVec F S5 .f32 := Host.absf main_arg2
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  let main_v14 : FVec F S1536x3 .f32 := Host.absf main_arg3
  let main_cst_4 : FVec F S_ .f32 := constant S_ .f32 0x7F800000#32
  let main_v15 : FVec F S1536x3 .f32 := broadcastInDim S1536x3 ![] bcast_S_S1536x3 main_cst_4
  let main_v16 : IVec S1536x3 1 := cmpf .olt main_v14 main_v15
  fn_part1 (F := F) main_arg4 main_arg5 main_arg6 main_arg7 main_arg8 main_v13 main_v16
-- ==== Kernel.lean ====
abbrev S32x1536 : Shape := ⟨2, ![32, 1536]⟩
abbrev S1536x5 : Shape := ⟨2, ![1536, 5]⟩
abbrev S5 : Shape := ⟨1, ![5]⟩
abbrev S1536x3 : Shape := ⟨2, ![1536, 3]⟩
abbrev S3 : Shape := ⟨1, ![3]⟩
abbrev S1536x256 : Shape := ⟨2, ![1536, 256]⟩
abbrev S256 : Shape := ⟨1, ![256]⟩
abbrev S256x5 : Shape := ⟨2, ![256, 5]⟩
abbrev S32x5 : Shape := ⟨2, ![32, 5]⟩
abbrev S32x3 : Shape := ⟨2, ![32, 3]⟩
abbrev S1x5 : Shape := ⟨2, ![1, 5]⟩
abbrev S1x3 : Shape := ⟨2, ![1, 3]⟩
abbrev S32x256 : Shape := ⟨2, ![32, 256]⟩
abbrev S1x256 : Shape := ⟨2, ![1, 256]⟩
abbrev S32x1x5 : Shape := ⟨3, ![32, 1, 5]⟩
abbrev S32x5x512x512 : Shape := ⟨4, ![32, 5, 512, 512]⟩
abbrev S1x1x5 : Shape := ⟨3, ![1, 1, 5]⟩
abbrev S1x5x512x512 : Shape := ⟨4, ![1, 5, 512, 512]⟩
abbrev S1x1x1 : Shape := ⟨3, ![1, 1, 1]⟩
abbrev S512x512 : Shape := ⟨2, ![512, 512]⟩
abbrev S1x1x512x512 : Shape := ⟨4, ![1, 1, 512, 512]⟩

abbrev nBuf : Space → Nat
  | .hbm => 14
  | .vmem => 16
  | .smem => 0
  | _ => 0

abbrev bufTy : (tb : Table) → Fin (tcTables nBuf tb) → BufTy
  | .hbm, ⟨0, _⟩ => ⟨S32x1536, .f32⟩
  | .hbm, ⟨1, _⟩ => ⟨S1536x5, .f32⟩
  | .hbm, ⟨2, _⟩ => ⟨S5, .f32⟩
  | .hbm, ⟨3, _⟩ => ⟨S1536x3, .f32⟩
  | .hbm, ⟨4, _⟩ => ⟨S3, .f32⟩
  | .hbm, ⟨5, _⟩ => ⟨S1536x256, .f32⟩
  | .hbm, ⟨6, _⟩ => ⟨S256, .f32⟩
  | .hbm, ⟨7, _⟩ => ⟨S256x5, .f32⟩
  | .hbm, ⟨8, _⟩ => ⟨S5, .f32⟩
  | .hbm, ⟨9, _⟩ => ⟨S32x5, .f32⟩
  | .hbm, ⟨10, _⟩ => ⟨S32x3, .f32⟩
  | .hbm, ⟨11, _⟩ => ⟨S32x5, .f32⟩
  | .hbm, ⟨12, _⟩ => ⟨S32x1x5, .f32⟩
  | .hbm, ⟨13, _⟩ => ⟨S32x5x512x512, .f32⟩
  | .local _ .vmem, ⟨0, _⟩ => ⟨S32x1536, .f32⟩
  | .local _ .vmem, ⟨1, _⟩ => ⟨S1536x5, .f32⟩
  | .local _ .vmem, ⟨2, _⟩ => ⟨S5, .f32⟩
  | .local _ .vmem, ⟨3, _⟩ => ⟨S1536x3, .f32⟩
  | .local _ .vmem, ⟨4, _⟩ => ⟨S3, .f32⟩
  | .local _ .vmem, ⟨5, _⟩ => ⟨S1536x256, .f32⟩
  | .local _ .vmem, ⟨6, _⟩ => ⟨S256, .f32⟩
  | .local _ .vmem, ⟨7, _⟩ => ⟨S256x5, .f32⟩
  | .local _ .vmem, ⟨8, _⟩ => ⟨S5, .f32⟩
  | .local _ .vmem, ⟨9, _⟩ => ⟨S32x5, .f32⟩
  | .local _ .vmem, ⟨10, _⟩ => ⟨S32x3, .f32⟩
  | .local _ .vmem, ⟨11, _⟩ => ⟨S32x5, .f32⟩
  | .local _ .vmem, ⟨12, _⟩ => ⟨S1x1x5, .f32⟩
  | .local _ .vmem, ⟨13, _⟩ => ⟨S1x1x5, .f32⟩
  | .local _ .vmem, ⟨14, _⟩ => ⟨S1x5x512x512, .f32⟩
  | .local _ .vmem, ⟨15, _⟩ => ⟨S1x5x512x512, .f32⟩
  | _, _ => ⟨S32x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc1_sem0_0 : DmaSem sig := 12
abbrev cc1_sem0_1 : DmaSem sig := 13
abbrev cc1_sem1_0 : DmaSem sig := 14
abbrev cc1_sem1_1 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x5 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x5 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x5 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x1x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x5x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S32x1536_S32x1536_0_0 : ∀ a, (![0, 0] : Fin 2 → Nat) a + S32x1536.size a ≤ S32x1536.size a
  h_S32x1536 : 0 < S32x1536.numel
  bitsLt_bf16_f32 : FTy.bits .bf16 < FTy.bits .f32
  inb_S1536x5_S1536x5_0_0 : ∀ a, (![0, 0] : Fin 2 → Nat) a + S1536x5.size a ≤ S1536x5.size a
  h_S1536x5 : 0 < S1536x5.numel
  inb_S5_S5_0 : ∀ a, (![0] : Fin 1 → Nat) a + S5.size a ≤ S5.size a
  h_S5 : 0 < S5.numel
  shapeCasts_S5_S1x5 : S5.ShapeCasts S1x5
  broadcasts_S1x5_S32x5 : S1x5.Broadcasts S32x5
  inb_S32x5_S32x5_0_0 : ∀ a, (![0, 0] : Fin 2 → Nat) a + S32x5.size a ≤ S32x5.size a
  h_S32x5 : 0 < S32x5.numel
  inb_S1536x3_S1536x3_0_0 : ∀ a, (![0, 0] : Fin 2 → Nat) a + S1536x3.size a ≤ S1536x3.size a
  h_S1536x3 : 0 < S1536x3.numel
  inb_S3_S3_0 : ∀ a, (![0] : Fin 1 → Nat) a + S3.size a ≤ S3.size a
  h_S3 : 0 < S3.numel
  shapeCasts_S3_S1x3 : S3.ShapeCasts S1x3
  broadcasts_S1x3_S32x3 : S1x3.Broadcasts S32x3
  inb_S32x3_S32x3_0_0 : ∀ a, (![0, 0] : Fin 2 → Nat) a + S32x3.size a ≤ S32x3.size a
  h_S32x3 : 0 < S32x3.numel
  inb_S1536x256_S1536x256_0_0 : ∀ a, (![0, 0] : Fin 2 → Nat) a + S1536x256.size a ≤ S1536x256.size a
  h_S1536x256 : 0 < S1536x256.numel
  inb_S256_S256_0 : ∀ a, (![0] : Fin 1 → Nat) a + S256.size a ≤ S256.size a
  h_S256 : 0 < S256.numel
  shapeCasts_S256_S1x256 : S256.ShapeCasts S1x256
  broadcasts_S1x256_S32x256 : S1x256.Broadcasts S32x256
  inb_S256x5_S256x5_0_0 : ∀ a, (![0, 0] : Fin 2 → Nat) a + S256x5.size a ≤ S256x5.size a
  h_S256x5 : 0 < S256x5.numel
  shapeCasts_S32x5_S32x1x5 : S32x5.ShapeCasts S32x1x5
  inb_S1x1x5_S1x1x1_0_0_0 : ∀ a, (![0, 0, 0] : Fin 3 → Nat) a + S1x1x1.size a ≤ S1x1x5.size a
  h_S1x1x1 : 0 < S1x1x1.numel
  inpos_S1x1x1_p0_0_0 : ∀ a, (![0, 0, 0] : Fin 3 → Nat) a < S1x1x1.size a
  inb_S1x5x512x512_S1x1x512x512_0_0_0_0 : ∀ a, (![0, 0, 0, 0] : Fin 4 → Nat) a + S1x1x512x512.size a ≤ S1x5x512x512.size a
  h_S1x1x512x512 : 0 < S1x1x512x512.numel
  shapeCasts_S1x1x512x512_S512x512 : S1x1x512x512.ShapeCasts S512x512
  shapeCasts_S512x512_S1x1x512x512 : S512x512.ShapeCasts S1x1x512x512
  inb_S1x1x5_S1x1x1_0_0_1 : ∀ a, (![0, 0, 1] : Fin 3 → Nat) a + S1x1x1.size a ≤ S1x1x5.size a
  inb_S1x5x512x512_S1x1x512x512_0_1_0_0 : ∀ a, (![0, 1, 0, 0] : Fin 4 → Nat) a + S1x1x512x512.size a ≤ S1x5x512x512.size a
  inb_S1x1x5_S1x1x1_0_0_2 : ∀ a, (![0, 0, 2] : Fin 3 → Nat) a + S1x1x1.size a ≤ S1x1x5.size a
  inb_S1x5x512x512_S1x1x512x512_0_2_0_0 : ∀ a, (![0, 2, 0, 0] : Fin 4 → Nat) a + S1x1x512x512.size a ≤ S1x5x512x512.size a
  inb_S1x1x5_S1x1x1_0_0_3 : ∀ a, (![0, 0, 3] : Fin 3 → Nat) a + S1x1x1.size a ≤ S1x1x5.size a
  inb_S1x5x512x512_S1x1x512x512_0_3_0_0 : ∀ a, (![0, 3, 0, 0] : Fin 4 → Nat) a + S1x1x512x512.size a ≤ S1x5x512x512.size a
  inb_S1x1x5_S1x1x1_0_0_4 : ∀ a, (![0, 0, 4] : Fin 3 → Nat) a + S1x1x1.size a ≤ S1x1x5.size a
  inb_S1x5x512x512_S1x1x512x512_0_4_0_0 : ∀ a, (![0, 4, 0, 0] : Fin 4 → Nat) a + S1x1x512x512.size a ≤ S1x5x512x512.size a
  dot_S32x1536_S1536x5_S32x5_1_0_0_1_n_n_wf : DotDims.WF S32x1536 S1536x5 S32x5 [1] [0] [0] [1] [] []
  dot_S32x1536_S1536x3_S32x3_1_0_0_1_n_n_wf : DotDims.WF S32x1536 S1536x3 S32x3 [1] [0] [0] [1] [] []
  dot_S32x1536_S1536x256_S32x256_1_0_0_1_n_n_wf : DotDims.WF S32x1536 S1536x256 S32x256 [1] [0] [0] [1] [] []
  dot_S32x256_S256x5_S32x5_1_0_0_1_n_n_wf : DotDims.WF S32x256 S256x5 S32x5 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x1536.size a ≤ S32x1536.size a
  hwx0_0 : ∀ i : grid0.Coords, EltTy.bits .f32 = 32 ∨ (Rect.block (s := S32x1536) S32x1536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x5.size a ≤ S1536x5.size a
  hwx0_1 : ∀ i : grid0.Coords, EltTy.bits .f32 = 32 ∨ (Rect.block (s := S1536x5) S1536x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5.size a ≤ S5.size a
  hwx0_2 : ∀ i : grid0.Coords, EltTy.bits .f32 = 32 ∨ (Rect.block (s := S5) S5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1536x3.size a ≤ S1536x3.size a
  hwx0_3 : ∀ i : grid0.Coords, EltTy.bits .f32 = 32 ∨ (Rect.block (s := S1536x3) S1536x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3.size a ≤ S3.size a
  hwx0_4 : ∀ i : grid0.Coords, EltTy.bits .f32 = 32 ∨ (Rect.block (s := S3) S3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1536x256.size a ≤ S1536x256.size a
  hwx0_5 : ∀ i : grid0.Coords, EltTy.bits .f32 = 32 ∨ (Rect.block (s := S1536x256) S1536x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x5.size a ≤ S256x5.size a
  hwx0_7 : ∀ i : grid0.Coords, EltTy.bits .f32 = 32 ∨ (Rect.block (s := S256x5) S256x5.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S5.size a ≤ S5.size a
  hwx0_8 : ∀ i : grid0.Coords, EltTy.bits .f32 = 32 ∨ (Rect.block (s := S5) S5.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x5.size a ≤ S32x5.size a
  hwx0_9 : ∀ i : grid0.Coords, EltTy.bits .f32 = 32 ∨ (Rect.block (s := S32x5) S32x5.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32x3.size a ≤ S32x3.size a
  hwx0_10 : ∀ i : grid0.Coords, EltTy.bits .f32 = 32 ∨ (Rect.block (s := S32x3) S32x3.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32x5.size a ≤ S32x5.size a
  hwx0_11 : ∀ i : grid0.Coords, EltTy.bits .f32 = 32 ∨ (Rect.block (s := S32x5) S32x5.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x5.size a ≤ S32x1x5.size a
  hwx1_0 : ∀ i : grid1.Coords, EltTy.bits .f32 = 32 ∨ (Rect.block (s := S32x1x5) S1x1x5.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x5x512x512.size a ≤ S32x5x512x512.size a
  hwx1_1 : ∀ i : grid1.Coords, EltTy.bits .f32 = 32 ∨ (Rect.block (s := S32x5x512x512) S1x5x512x512.size (cc1_transform_1 i) (hinb1_1 i)).WholeWords (EltTy.packing .f32)

variable [Facts₀]

def dot_S32x1536_S1536x5_S32x5_1_0_0_1_n_n : DotDims S32x1536 S1536x5 S32x5 where
  lhsContracting := [1]
  rhsContracting := [0]
  lhsNonContracting := [0]
  rhsNonContracting := [1]
  lhsBatch := []
  rhsBatch := []
  wf := dot_S32x1536_S1536x5_S32x5_1_0_0_1_n_n_wf
def dot_S32x1536_S1536x3_S32x3_1_0_0_1_n_n : DotDims S32x1536 S1536x3 S32x3 where
  lhsContracting := [1]
  rhsContracting := [0]
  lhsNonContracting := [0]
  rhsNonContracting := [1]
  lhsBatch := []
  rhsBatch := []
  wf := dot_S32x1536_S1536x3_S32x3_1_0_0_1_n_n_wf
def dot_S32x1536_S1536x256_S32x256_1_0_0_1_n_n : DotDims S32x1536 S1536x256 S32x256 where
  lhsContracting := [1]
  rhsContracting := [0]
  lhsNonContracting := [0]
  rhsNonContracting := [1]
  lhsBatch := []
  rhsBatch := []
  wf := dot_S32x1536_S1536x256_S32x256_1_0_0_1_n_n_wf
def dot_S32x256_S256x5_S32x5_1_0_0_1_n_n : DotDims S32x256 S256x5 S32x5 where
  lhsContracting := [1]
  rhsContracting := [0]
  lhsNonContracting := [0]
  rhsNonContracting := [1]
  lhsBatch := []
  rhsBatch := []
  wf := dot_S32x256_S256x5_S32x5_1_0_0_1_n_n_wf

abbrev win0_0 : Pipeline.Window sig grid0 :=
  Pipeline.Window.ofSpec (Memref.whole main_arg0) S32x1536.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1536x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1536x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1536x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x5.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S5.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S32x5.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S32x3.size cc0_transform_10 reads0_10 true true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0_2) S32x5.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v1) S1x1x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x5x512x512.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S32x1536 : Shape := ⟨2, ![32, 1536]⟩
abbrev S1536x5 : Shape := ⟨2, ![1536, 5]⟩
abbrev S5 : Shape := ⟨1, ![5]⟩
abbrev S1536x3 : Shape := ⟨2, ![1536, 3]⟩
abbrev S3 : Shape := ⟨1, ![3]⟩
abbrev S1536x256 : Shape := ⟨2, ![1536, 256]⟩
abbrev S256 : Shape := ⟨1, ![256]⟩
abbrev S256x5 : Shape := ⟨2, ![256, 5]⟩
abbrev S32x5 : Shape := ⟨2, ![32, 5]⟩
abbrev S1x5 : Shape := ⟨2, ![1, 5]⟩
abbrev S32x3 : Shape := ⟨2, ![32, 3]⟩
abbrev S1x3 : Shape := ⟨2, ![1, 3]⟩
abbrev S32x256 : Shape := ⟨2, ![32, 256]⟩
abbrev S1x256 : Shape := ⟨2, ![1, 256]⟩
abbrev S_ : Shape := ⟨0, ![]⟩
abbrev S32x5x1x1 : Shape := ⟨4, ![32, 5, 1, 1]⟩
abbrev S32x5x512x512 : Shape := ⟨4, ![32, 5, 512, 512]⟩

abbrev nBuf : Space → Nat
  | .hbm => 30
  | .vmem => 0
  | .smem => 0
  | _ => 0

abbrev bufTy : (tb : Table) → Fin (tcTables nBuf tb) → BufTy
  | .hbm, ⟨0, _⟩ => ⟨S32x1536, .f32⟩
  | .hbm, ⟨1, _⟩ => ⟨S1536x5, .f32⟩
  | .hbm, ⟨2, _⟩ => ⟨S5, .f32⟩
  | .hbm, ⟨3, _⟩ => ⟨S1536x3, .f32⟩
  | .hbm, ⟨4, _⟩ => ⟨S3, .f32⟩
  | .hbm, ⟨5, _⟩ => ⟨S1536x256, .f32⟩
  | .hbm, ⟨6, _⟩ => ⟨S256, .f32⟩
  | .hbm, ⟨7, _⟩ => ⟨S256x5, .f32⟩
  | .hbm, ⟨8, _⟩ => ⟨S5, .f32⟩
  | .hbm, ⟨9, _⟩ => ⟨S32x5, .f32⟩
  | .hbm, ⟨10, _⟩ => ⟨S1x5, .f32⟩
  | .hbm, ⟨11, _⟩ => ⟨S32x5, .f32⟩
  | .hbm, ⟨12, _⟩ => ⟨S32x5, .f32⟩
  | .hbm, ⟨13, _⟩ => ⟨S32x3, .f32⟩
  | .hbm, ⟨14, _⟩ => ⟨S1x3, .f32⟩
  | .hbm, ⟨15, _⟩ => ⟨S32x3, .f32⟩
  | .hbm, ⟨16, _⟩ => ⟨S32x3, .f32⟩
  | .hbm, ⟨17, _⟩ => ⟨S32x256, .f32⟩
  | .hbm, ⟨18, _⟩ => ⟨S1x256, .f32⟩
  | .hbm, ⟨19, _⟩ => ⟨S32x256, .f32⟩
  | .hbm, ⟨20, _⟩ => ⟨S32x256, .f32⟩
  | .hbm, ⟨21, _⟩ => ⟨S_, .f32⟩
  | .hbm, ⟨22, _⟩ => ⟨S32x256, .f32⟩
  | .hbm, ⟨23, _⟩ => ⟨S32x256, .f32⟩
  | .hbm, ⟨24, _⟩ => ⟨S32x5, .f32⟩
  | .hbm, ⟨25, _⟩ => ⟨S1x5, .f32⟩
  | .hbm, ⟨26, _⟩ => ⟨S32x5, .f32⟩
  | .hbm, ⟨27, _⟩ => ⟨S32x5, .f32⟩
  | .hbm, ⟨28, _⟩ => ⟨S32x5x1x1, .f32⟩
  | .hbm, ⟨29, _⟩ => ⟨S32x5x512x512, .f32⟩
  | _, _ => ⟨S32x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_cst : Ref sig .tc := ⟨.hbm, 21, rfl⟩
abbrev main_call0_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  bcast_S5_S1x5_1 : S5.BroadcastsInDim S1x5 (![1] : Fin 1 → Fin S1x5.rank)
  bcast_S1x5_S32x5_0_1 : S1x5.BroadcastsInDim S32x5 (![0, 1] : Fin 2 → Fin S32x5.rank)
  bcast_S3_S1x3_1 : S3.BroadcastsInDim S1x3 (![1] : Fin 1 → Fin S1x3.rank)
  bcast_S1x3_S32x3_0_1 : S1x3.BroadcastsInDim S32x3 (![0, 1] : Fin 2 → Fin S32x3.rank)
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S_S32x256 : S_.BroadcastsInDim S32x256 (![] : Fin 0 → Fin S32x256.rank)
  bcast_S32x5_S32x5x1x1_0_1 : S32x5.BroadcastsInDim S32x5x1x1 (![0, 1] : Fin 2 → Fin S32x5x1x1.rank)
  bcast_S32x5x1x1_S32x5x512x512_0_1_2_3 : S32x5x1x1.BroadcastsInDim S32x5x512x512 (![0, 1, 2, 3] : Fin 4 → Fin S32x5x512x512.rank)
  dot_S32x1536_S1536x5_S32x5_1_0_0_1_n_n_wf : DotDims.WF S32x1536 S1536x5 S32x5 [1] [0] [0] [1] [] []
  dot_S32x1536_S1536x3_S32x3_1_0_0_1_n_n_wf : DotDims.WF S32x1536 S1536x3 S32x3 [1] [0] [0] [1] [] []
  dot_S32x1536_S1536x256_S32x256_1_0_0_1_n_n_wf : DotDims.WF S32x1536 S1536x256 S32x256 [1] [0] [0] [1] [] []
  dot_S32x256_S256x5_S32x5_1_0_0_1_n_n_wf : DotDims.WF S32x256 S256x5 S32x5 [1] [0] [0] [1] [] []

variable [Facts₀]

def dot_S32x1536_S1536x5_S32x5_1_0_0_1_n_n : DotDims S32x1536 S1536x5 S32x5 where
  lhsContracting := [1]
  rhsContracting := [0]
  lhsNonContracting := [0]
  rhsNonContracting := [1]
  lhsBatch := []
  rhsBatch := []
  wf := dot_S32x1536_S1536x5_S32x5_1_0_0_1_n_n_wf
def dot_S32x1536_S1536x3_S32x3_1_0_0_1_n_n : DotDims S32x1536 S1536x3 S32x3 where
  lhsContracting := [1]
  rhsContracting := [0]
  lhsNonContracting := [0]
  rhsNonContracting := [1]
  lhsBatch := []
  rhsBatch := []
  wf := dot_S32x1536_S1536x3_S32x3_1_0_0_1_n_n_wf
def dot_S32x1536_S1536x256_S32x256_1_0_0_1_n_n : DotDims S32x1536 S1536x256 S32x256 where
  lhsContracting := [1]
  rhsContracting := [0]
  lhsNonContracting := [0]
  rhsNonContracting := [1]
  lhsBatch := []
  rhsBatch := []
  wf := dot_S32x1536_S1536x256_S32x256_1_0_0_1_n_n_wf
def dot_S32x256_S256x5_S32x5_1_0_0_1_n_n : DotDims S32x256 S256x5 S32x5 where
  lhsContracting := [1]
  rhsContracting := [0]
  lhsNonContracting := [0]
  rhsNonContracting := [1]
  lhsBatch := []
  rhsBatch := []
  wf := dot_S32x256_S256x5_S32x5_1_0_0_1_n_n_wf

class Facts : Prop extends Facts₀ where

variable [Facts]
-- ==== Proof.HeadsValue.lean ====
/-
  What the first kernel region (the three heads, one grid point) leaves in its three result arrays.

  The region's grid has a single point and every window's block is its whole array (all index maps are constantly zero),
  so each input block is the whole argument array and each result array ends holding exactly what the body stored into its
  staging buffer: the body's value for that head, as a function of the whole argument arrays. Stated for any contents V
  the region is entered from and at any float instance: nothing here looks inside the arithmetic.
-/
import proofs.«175247_j5746666242651_1_alg».proof.Proof.Gen.KernelIdeal.Frame
import Idealize.ShloMosaic.Lib.Pipeline.Value

noncomputable section

namespace Cert.KernelIdeal.HeadsValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-! ## Every window of the region sits at block index zero on every axis, at the grid's one point -/

theorem idx_0 : ∀ t : Fin cfg0.N, ∀ a, win0_0.index t a = 0 := (by decide +kernel : ∀ t : Fin grid0.N, _)
theorem idx_1 : ∀ t : Fin cfg0.N, ∀ a, win0_1.index t a = 0 := (by decide +kernel : ∀ t : Fin grid0.N, _)
theorem idx_2 : ∀ t : Fin cfg0.N, ∀ a, win0_2.index t a = 0 := (by decide +kernel : ∀ t : Fin grid0.N, _)
theorem idx_3 : ∀ t : Fin cfg0.N, ∀ a, win0_3.index t a = 0 := (by decide +kernel : ∀ t : Fin grid0.N, _)
theorem idx_4 : ∀ t : Fin cfg0.N, ∀ a, win0_4.index t a = 0 := (by decide +kernel : ∀ t : Fin grid0.N, _)
theorem idx_5 : ∀ t : Fin cfg0.N, ∀ a, win0_5.index t a = 0 := (by decide +kernel : ∀ t : Fin grid0.N, _)
theorem idx_6 : ∀ t : Fin cfg0.N, ∀ a, win0_6.index t a = 0 := (by decide +kernel : ∀ t : Fin grid0.N, _)
theorem idx_7 : ∀ t : Fin cfg0.N, ∀ a, win0_7.index t a = 0 := (by decide +kernel : ∀ t : Fin grid0.N, _)
theorem idx_8 : ∀ t : Fin cfg0.N, ∀ a, win0_8.index t a = 0 := (by decide +kernel : ∀ t : Fin grid0.N, _)
theorem idx_9 : ∀ t : Fin cfg0.N, ∀ a, win0_9.index t a = 0 := (by decide +kernel : ∀ t : Fin grid0.N, _)
theorem idx_10 : ∀ t : Fin cfg0.N, ∀ a, win0_10.index t a = 0 := (by decide +kernel : ∀ t : Fin grid0.N, _)
theorem idx_11 : ∀ t : Fin cfg0.N, ∀ a, win0_11.index t a = 0 := (by decide +kernel : ∀ t : Fin grid0.N, _)

/-- A function read at an element of a block whose index is zero on every axis is the function read at the element's own
    coordinates: closes a goal f (block's embedding of y) = f y, given the window and its index fact at the point. -/
local macro "at_zero_block " w:term " , " h:term : tactic =>
  `(tactic| (refine congrArg _ (funext fun a => Fin.ext ?_); exact Pipeline.Window.rect_emb_val_of_index_zero $w _ a ($h a) _))

/-! ## Each input block is its whole array -/

theorem block_0 (c : Dev nD) (t : Fin cfg0.N) : iblk0 V c 0 t = V c main_arg0 := by
  funext y
  show V c main_arg0 (((cfg0.win 0).blk t).view.emb y) = V c main_arg0 y
  at_zero_block win0_0 , idx_0 t
theorem block_1 (c : Dev nD) (t : Fin cfg0.N) : iblk0 V c 1 t = V c main_arg1 := by
  funext y
  show V c main_arg1 (((cfg0.win 1).blk t).view.emb y) = V c main_arg1 y
  at_zero_block win0_1 , idx_1 t
theorem block_2 (c : Dev nD) (t : Fin cfg0.N) : iblk0 V c 2 t = V c main_arg2 := by
  funext y
  show V c main_arg2 (((cfg0.win 2).blk t).view.emb y) = V c main_arg2 y
  at_zero_block win0_2 , idx_2 t
theorem block_3 (c : Dev nD) (t : Fin cfg0.N) : iblk0 V c 3 t = V c main_arg3 := by
  funext y
  show V c main_arg3 (((cfg0.win 3).blk t).view.emb y) = V c main_arg3 y
  at_zero_block win0_3 , idx_3 t
theorem block_4 (c : Dev nD) (t : Fin cfg0.N) : iblk0 V c 4 t = V c main_arg4 := by
  funext y
  show V c main_arg4 (((cfg0.win 4).blk t).view.emb y) = V c main_arg4 y
  at_zero_block win0_4 , idx_4 t
theorem block_5 (c : Dev nD) (t : Fin cfg0.N) : iblk0 V c 5 t = V c main_arg5 := by
  funext y
  show V c main_arg5 (((cfg0.win 5).blk t).view.emb y) = V c main_arg5 y
  at_zero_block win0_5 , idx_5 t
theorem block_6 (c : Dev nD) (t : Fin cfg0.N) : iblk0 V c 6 t = V c main_arg6 := by
  funext y
  show V c main_arg6 (((cfg0.win 6).blk t).view.emb y) = V c main_arg6 y
  at_zero_block win0_6 , idx_6 t
theorem block_7 (c : Dev nD) (t : Fin cfg0.N) : iblk0 V c 7 t = V c main_arg7 := by
  funext y
  show V c main_arg7 (((cfg0.win 7).blk t).view.emb y) = V c main_arg7 y
  at_zero_block win0_7 , idx_7 t
theorem block_8 (c : Dev nD) (t : Fin cfg0.N) : iblk0 V c 8 t = V c main_arg8 := by
  funext y
  show V c main_arg8 (((cfg0.win 8).blk t).view.emb y) = V c main_arg8 y
  at_zero_block win0_8 , idx_8 t

/-! ## Each result block is its whole array: reading a whole-array function through it changes nothing, and it covers every index -/

theorem read_9 (t : Fin cfg0.N) (G : Vec F S32x5 .f32) : ((cfg0.win 9).blk t).view.read (Elt F) G = G := by
  funext y
  show G (((cfg0.win 9).blk t).view.emb y) = G y
  at_zero_block win0_9 , idx_9 t
theorem read_10 (t : Fin cfg0.N) (G : Vec F S32x3 .f32) : ((cfg0.win 10).blk t).view.read (Elt F) G = G := by
  funext y
  show G (((cfg0.win 10).blk t).view.emb y) = G y
  at_zero_block win0_10 , idx_10 t
theorem read_11 (t : Fin cfg0.N) (G : Vec F S32x5 .f32) : ((cfg0.win 11).blk t).view.read (Elt F) G = G := by
  funext y
  show G (((cfg0.win 11).blk t).view.emb y) = G y
  at_zero_block win0_11 , idx_11 t

theorem mem_9 (t : Fin cfg0.N) (i : S32x5.Idx) : i ∈ ((cfg0.win 9).blk t).view.set := by
  show i ∈ ((View.whole main_v0_0).slice (win0_9.rect t)).set
  rw [View.set_slice_whole, Rect.mem_set_unit]
  intro a
  rw [idx_9 t a, Nat.zero_mul, Nat.zero_add]
  exact ⟨Nat.zero_le _, (i a).isLt⟩
theorem mem_10 (t : Fin cfg0.N) (i : S32x3.Idx) : i ∈ ((cfg0.win 10).blk t).view.set := by
  show i ∈ ((View.whole main_v0_1).slice (win0_10.rect t)).set
  rw [View.set_slice_whole, Rect.mem_set_unit]
  intro a
  rw [idx_10 t a, Nat.zero_mul, Nat.zero_add]
  exact ⟨Nat.zero_le _, (i a).isLt⟩
theorem mem_11 (t : Fin cfg0.N) (i : S32x5.Idx) : i ∈ ((cfg0.win 11).blk t).view.set := by
  show i ∈ ((View.whole main_v0_2).slice (win0_11.rect t)).set
  rw [View.set_slice_whole, Rect.mem_set_unit]
  intro a
  rw [idx_11 t a, Nat.zero_mul, Nat.zero_add]
  exact ⟨Nat.zero_le _, (i a).isLt⟩

/-! ## The body's one store per result buffer leaves its value there -/

theorem hz2 : (![0, 0] : Fin 2 → Nat) = fun _ => 0 := funext fun a => by fin_cases a <;> rfl
theorem hz1 : (![0] : Fin 1 → Nat) = fun _ => 0 := funext fun a => by fin_cases a; rfl

/-- The first head's buffer holds x0 · x1 + x2 (the body's value over the loaded arrays). -/
theorem stored_9 (x0 : Vec F S32x1536 .f32) (x1 : Vec F S1536x5 .f32) (x2 : Vec F S5 .f32) (x3 : Vec F S1536x3 .f32) (x4 : Vec F S3 .f32)
    (x5 : Vec F S1536x256 .f32) (x6 : Vec F S256 .f32) (x7 : Vec F S256x5 .f32) (x8 : Vec F S5 .f32) :
    out0_9 x0 x1 x2 x3 x4 x5 x6 x7 x8 = k0_pay3 x0 x1 x2 := by
  unfold out0_9
  rw [View.canon_unit_zero hz2]
  simp only [View.ld_unit_zero (S := S32x1536) hz2, View.ld_unit_zero (S := S1536x5) hz2, View.ld_unit_zero (S := S5) hz1]

/-- The second head's buffer holds x0 · x3 + x4. -/
theorem stored_10 (x0 : Vec F S32x1536 .f32) (x1 : Vec F S1536x5 .f32) (x2 : Vec F S5 .f32) (x3 : Vec F S1536x3 .f32) (x4 : Vec F S3 .f32)
    (x5 : Vec F S1536x256 .f32) (x6 : Vec F S256 .f32) (x7 : Vec F S256x5 .f32) (x8 : Vec F S5 .f32) :
    out0_10 x0 x1 x2 x3 x4 x5 x6 x7 x8 = k0_pay4 x0 x3 x4 := by
  unfold out0_10
  rw [View.canon_unit_zero hz2]
  simp only [View.ld_unit_zero (S := S32x1536) hz2, View.ld_unit_zero (S := S1536x3) hz2, View.ld_unit_zero (S := S3) hz1]

/-- The third buffer holds the two-layer value max(x0 · x5 + x6, 0) · x7 + x8. -/
theorem stored_11 (x0 : Vec F S32x1536 .f32) (x1 : Vec F S1536x5 .f32) (x2 : Vec F S5 .f32) (x3 : Vec F S1536x3 .f32) (x4 : Vec F S3 .f32)
    (x5 : Vec F S1536x256 .f32) (x6 : Vec F S256 .f32) (x7 : Vec F S256x5 .f32) (x8 : Vec F S5 .f32) :
    out0_11 x0 x1 x2 x3 x4 x5 x6 x7 x8 = k0_pay1 (k0_pay5 x0 x5 x6 x7) (k0_pay6 x8) := by
  unfold out0_11
  rw [View.canon_unit_zero hz2]
  simp only [View.ld_unit_zero (S := S32x1536) hz2, View.ld_unit_zero (S := S1536x256) hz2, View.ld_unit_zero (S := S256) hz1,
    View.ld_unit_zero (S := S256x5) hz2, View.ld_unit_zero (S := S5) hz1]

/-! ## The three result arrays after the region -/

/-- The first head's array after the region: the body's value of the whole argument arrays. -/
theorem array_9 (c : Dev nD) : (dat0 V c).arrAt 9 cfg0.N = k0_pay3 (V c main_arg0) (V c main_arg1) (V c main_arg2) := by
  refine (dat0 V c).arrAt_eq_of_cover 9 _ (fun t _ => ?_) (fun i => ⟨⟨0, by decide⟩, flush0_9 _, mem_9 _ i⟩)
  show (cfg0.win 9).cut (grid0.coords t) ((dat0 V c).after 9 t) = _
  rw [after0_9, stored_9, block_0, block_1, block_2, read_9]
  rfl

/-- The second head's array after the region. -/
theorem array_10 (c : Dev nD) : (dat0 V c).arrAt 10 cfg0.N = k0_pay4 (V c main_arg0) (V c main_arg3) (V c main_arg4) := by
  refine (dat0 V c).arrAt_eq_of_cover 10 _ (fun t _ => ?_) (fun i => ⟨⟨0, by decide⟩, flush0_10 _, mem_10 _ i⟩)
  show (cfg0.win 10).cut (grid0.coords t) ((dat0 V c).after 10 t) = _
  rw [after0_10, stored_10, block_0, block_3, block_4, read_10]
  rfl

/-- The per-sample five-vector after the region: the two-layer value of the whole argument arrays. -/
theorem array_11 (c : Dev nD) : (dat0 V c).arrAt 11 cfg0.N
    = k0_pay1 (k0_pay5 (V c main_arg0) (V c main_arg5) (V c main_arg6) (V c main_arg7)) (k0_pay6 (V c main_arg8)) := by
  refine (dat0 V c).arrAt_eq_of_cover 11 _ (fun t _ => ?_) (fun i => ⟨⟨0, by decide⟩, flush0_11 _, mem_11 _ i⟩)
  show (cfg0.win 11).cut (grid0.coords t) ((dat0 V c).after 11 t) = _
  rw [after0_11, stored_11, block_0, block_5, block_6, block_7, block_8, read_11]
  rfl

end Cert.KernelIdeal.HeadsValue

end
-- ==== Proof.SegValue.lean ====
/-
  What the second kernel region (the spatial broadcast, one grid point per sample) leaves in its result array.

  At grid point t the region fetches the five numbers of sample t and stores, for each channel q, the q-th of them into
  every position of the [512, 512] plane q of its [1, 5, 512, 512] block; the block is sample t of the result. So after the
  region entry (b, q, u, v) of the result holds entry (b, 0, q) of the [32, 1, 5] array the region read, whatever that array
  is. Stated for any contents V the region is entered from and at any float instance.
-/
import proofs.«175247_j5746666242651_1_alg».proof.Proof.Gen.KernelIdeal.Frame
import Idealize.ShloMosaic.Lib.Pipeline.Value
import Idealize.ShloMosaic.Lib.ValueIdx

noncomputable section

namespace Cert.KernelIdeal.SegValue

open Cert.KernelIdeal Cert.KernelIdeal.Gen Idealize.ShloMosaic Idealize.ShloMosaic.TcCoe Idealize.SL.Sem
open Idealize.ShloMosaic.Pipeline (Dat)
open Idealize.ShloMosaic.ValueIdx (ix2 ix3 ix4)

variable {F : FTy → Type} [FloatOps F]
variable (V : (c : Dev nD) → (b : Ref sig .tc) → Buf (Elt F) ((c : Thread nD τ).loc b))

/-- The one coordinate of a unit axis. -/
abbrev z1 : Fin 1 := ⟨0, Nat.one_pos⟩
/-- Channel q of a fetched [1, 1, 5] block. -/
abbrev chan (q : Fin 5) : S1x1x5.Idx := ix3 z1 z1 q

/-- The result the region builds from a [32, 1, 5] array X: entry (b, q, u, v) is X (b, 0, q). -/
def planes (X : Vec F S32x1x5 .f32) : Vec F S32x5x512x512 .f32 :=
  fun i => X (ix3 (⟨(i 0).val, (i 0).isLt⟩ : Fin 32) z1 (⟨(i 1).val, (i 1).isLt⟩ : Fin 5))

/-! ## One grid point: the block the body leaves -/

/-- A splat of the one loaded element, viewed [1, 1, 512, 512], is that element everywhere. -/
theorem splat_apply (v : Vec F S1x1x1 .f32) (x : S1x1x512x512.Idx) :
    shapeCast S1x1x512x512 (broadcast S512x512 (extractAt ![0, 0, 0] v inpos_S1x1x1_p0_0_0)) shapeCasts_S512x512_S1x1x512x512 x
      = v (ix3 z1 z1 z1) := by
  show v (fun a => ⟨(![0, 0, 0] : Fin 3 → Nat) a, inpos_S1x1x1_p0_0_0 a⟩) = v (ix3 z1 z1 z1)
  exact congrArg v (funext fun a => Fin.ext (by
    match a with
    | ⟨0, _⟩ => rfl
    | ⟨1, _⟩ => rfl
    | ⟨2, _⟩ => rfl))

/-- The body's five plane stores tile the block, and the store of plane q writes channel q of the fetched five numbers
    everywhere: entry y of the block is channel (y 1). -/
theorem stored (x0 : Vec F S1x1x5 .f32) (y : S1x5x512x512.Idx) :
    out1_1 x0 y = x0 (chan ⟨(y 1).val, (y 1).isLt⟩) := by
  unfold out1_1
  refine View.canon_apply_of_pieces (fun y : S1x5x512x512.Idx => x0 (chan ⟨(y 1).val, (y 1).isLt⟩)) _ ?_ y (cover1_1 _ _ _ _ _ y)
  intro p hp x
  simp only [List.mem_cons, List.mem_nil_iff, or_false] at hp
  rcases hp with rfl | rfl | rfl | rfl | rfl
  · show k1_pay1 (View.ld x0 r1_8) x = x0 (chan ⟨(r1_9.emb x 1).val, _⟩)
    unfold k1_pay1
    rw [splat_apply]
    show x0 (r1_8.emb (ix3 z1 z1 z1)) = _
    refine congrArg x0 (funext fun a => Fin.ext ?_)
    have hx : (x 1).val < 1 := (x 1).isLt
    match a with
    | ⟨0, _⟩ => rfl
    | ⟨1, _⟩ => rfl
    | ⟨2, _⟩ => show 4 + 1 * 0 = 4 + 1 * (x 1).val; omega
  · show k1_pay5 (View.ld x0 r1_6) x = x0 (chan ⟨(r1_7.emb x 1).val, _⟩)
    unfold k1_pay5
    rw [splat_apply]
    show x0 (r1_6.emb (ix3 z1 z1 z1)) = _
    refine congrArg x0 (funext fun a => Fin.ext ?_)
    have hx : (x 1).val < 1 := (x 1).isLt
    match a with
    | ⟨0, _⟩ => rfl
    | ⟨1, _⟩ => rfl
    | ⟨2, _⟩ => show 3 + 1 * 0 = 3 + 1 * (x 1).val; omega
  · show k1_pay4 (View.ld x0 r1_4) x = x0 (chan ⟨(r1_5.emb x 1).val, _⟩)
    unfold k1_pay4
    rw [splat_apply]
    show x0 (r1_4.emb (ix3 z1 z1 z1)) = _
    refine congrArg x0 (funext fun a => Fin.ext ?_)
    have hx : (x 1).val < 1 := (x 1).isLt
    match a with
    | ⟨0, _⟩ => rfl
    | ⟨1, _⟩ => rfl
    | ⟨2, _⟩ => show 2 + 1 * 0 = 2 + 1 * (x 1).val; omega
  · show k1_pay3 (View.ld x0 r1_2) x = x0 (chan ⟨(r1_3.emb x 1).val, _⟩)
    unfold k1_pay3
    rw [splat_apply]
    show x0 (r1_2.emb (ix3 z1 z1 z1)) = _
    refine congrArg x0 (funext fun a => Fin.ext ?_)
    have hx : (x 1).val < 1 := (x 1).isLt
    match a with
    | ⟨0, _⟩ => rfl
    | ⟨1, _⟩ => rfl
    | ⟨2, _⟩ => show 1 + 1 * 0 = 1 + 1 * (x 1).val; omega
  · show k1_pay2 (View.ld x0 r1_0) x = x0 (chan ⟨(r1_1.emb x 1).val, _⟩)
    unfold k1_pay2
    rw [splat_apply]
    show x0 (r1_0.emb (ix3 z1 z1 z1)) = _
    refine congrArg x0 (funext fun a => Fin.ext ?_)
    have hx : (x 1).val < 1 := (x 1).isLt
    match a with
    | ⟨0, _⟩ => rfl
    | ⟨1, _⟩ => rfl
    | ⟨2, _⟩ => show 0 + 1 * 0 = 0 + 1 * (x 1).val; omega

/-! ## The grid: point t handles sample t -/

/-- The fetched window's block index at point t is (t, 0, 0). -/
theorem idx_in : ∀ t : Fin cfg1.N, win1_0.index t (0 : Fin 3) = t.val ∧ win1_0.index t (1 : Fin 3) = 0 ∧ win1_0.index t (2 : Fin 3) = 0 :=
  (by decide +kernel : ∀ t : Fin grid1.N, _)
/-- The result window's block index at point t is (t, 0, 0, 0). -/
theorem idx_out : ∀ t : Fin cfg1.N, win1_1.index t (0 : Fin 4) = t.val ∧ win1_1.index t (1 : Fin 4) = 0
    ∧ win1_1.index t (2 : Fin 4) = 0 ∧ win1_1.index t (3 : Fin 4) = 0 :=
  (by decide +kernel : ∀ t : Fin grid1.N, _)

/-- What point t writes back is block t of planes of the array the region read. -/
theorem flushed_eq (c : Dev nD) (t : Fin cfg1.N) :
    (dat1 V c).flushed 1 t = ((cfg1.win 1).blk t).view.read (Elt F) (planes (V c main_v1)) := by
  show (cfg1.win 1).cut (grid1.coords t) ((dat1 V c).after 1 t) = _
  rw [after1_1]
  funext y
  show out1_1 (iblk1 V c 0 t) ((cfg1.win 1).xinj (grid1.coords t) y) = planes (V c main_v1) (((cfg1.win 1).blk t).view.emb y)
  rw [stored]
  show V c main_v1 (((cfg1.win 0).blk t).view.emb (chan ⟨(y 1).val, _⟩))
      = V c main_v1 (ix3 (⟨(((cfg1.win 1).blk t).view.emb y 0).val, _⟩ : Fin 32) z1 (⟨(((cfg1.win 1).blk t).view.emb y 1).val, _⟩ : Fin 5))
  refine congrArg _ (funext fun a => Fin.ext ?_)
  obtain ⟨i0, i1, i2⟩ := idx_in t
  obtain ⟨o0, o1, o2, o3⟩ := idx_out t
  have hy : (y 0).val < 1 := (y 0).isLt
  match a with
  | ⟨0, _⟩ => show win1_0.index t (0 : Fin 3) * 1 + 1 * 0 = win1_1.index t (0 : Fin 4) * 1 + 1 * (y 0).val; omega
  | ⟨1, _⟩ => show win1_0.index t (1 : Fin 3) * 1 + 1 * 0 = 0; omega
  | ⟨2, _⟩ => show win1_0.index t (2 : Fin 3) * 5 + 1 * (y 1).val = win1_1.index t (1 : Fin 4) * 5 + 1 * (y 1).val; omega

/-- Every index of the result lies in the block of the point that handles its sample. -/
theorem covered (i : S32x5x512x512.Idx) :
    ∃ t : Fin cfg1.N, (cfg1.win 1).flush t = true ∧ i ∈ ((cfg1.win 1).blk t).view.set := by
  have hN : cfg1.N = 32 := N_1
  have hlt : (i 0).val < cfg1.N := by rw [hN]; exact (i 0).isLt
  refine ⟨⟨(i 0).val, hlt⟩, flush1_1 _, ?_⟩
  show i ∈ ((View.whole main_v2).slice (win1_1.rect ⟨(i 0).val, hlt⟩)).set
  rw [View.set_slice_whole, Rect.mem_set_unit]
  obtain ⟨o0, o1, o2, o3⟩ := idx_out ⟨(i 0).val, hlt⟩
  have o0' : win1_1.index ⟨(i 0).val, hlt⟩ (0 : Fin 4) = (i 0).val := o0
  have h0 : (i 0).val < 32 := (i 0).isLt
  have h1 : (i 1).val < 5 := (i 1).isLt
  have h2 : (i 2).val < 512 := (i 2).isLt
  have h3 : (i 3).val < 512 := (i 3).isLt
  intro a
  match a with
  | ⟨0, _⟩ =>
    show win1_1.index ⟨(i 0).val, hlt⟩ (0 : Fin 4) * 1 ≤ (i 0).val ∧ (i 0).val < win1_1.index ⟨(i 0).val, hlt⟩ (0 : Fin 4) * 1 + 1
    omega
  | ⟨1, _⟩ =>
    show win1_1.index ⟨(i 0).val, hlt⟩ (1 : Fin 4) * 5 ≤ (i 1).val ∧ (i 1).val < win1_1.index ⟨(i 0).val, hlt⟩ (1 : Fin 4) * 5 + 5
    omega
  | ⟨2, _⟩ =>
    show win1_1.index ⟨(i 0).val, hlt⟩ (2 : Fin 4) * 512 ≤ (i 2).val ∧ (i 2).val < win1_1.index ⟨(i 0).val, hlt⟩ (2 : Fin 4) * 512 + 512
    omega
  | ⟨3, _⟩ =>
    show win1_1.index ⟨(i 0).val, hlt⟩ (3 : Fin 4) * 512 ≤ (i 3).val ∧ (i 3).val < win1_1.index ⟨(i 0).val, hlt⟩ (3 : Fin 4) * 512 + 512
    omega

/-- The result array after the region: planes of the array the region read. -/
theorem array (c : Dev nD) : (dat1 V c).arrAt 1 cfg1.N = planes (V c main_v1) :=
  (dat1 V c).arrAt_eq_of_cover 1 _ (fun t _ => flushed_eq V c t) covered

end Cert.KernelIdeal.SegValue

end
-- ==== Proof.Fold.lean ====
/-
  Which array each result buffer holds when @main returns, read through the fold over @main's three segments (the heads
  region, the reshape, the broadcast region).

  The two class heads are results of the first region and nothing later writes them, so they end at the first region's
  values. The third result is the second region's: the planes of the [32, 1, 5] array it read, which is the reshape of
  the first region's [32, 5] five-vector. Stated at any float instance: no arithmetic is opened here.
-/
import proofs.«175247_j5746666242651_1_alg».proof.Proof.HeadsValue
import proofs.«175247_j5746666242651_1_alg».proof.Proof.SegValue
import Idealize.ShloMosaic.Lib.StableHlo.Run

noncomputable section

namespace Cert.KernelIdeal.Fold

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The reshape between the regions writes only its own result buffer. -/
theorem reshape_keeps (c : Dev nD) (b : Ref sig .tc) (hb : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- The first class head when @main returns: the first region's value of the launch arrays. -/
theorem head_dr (c : Dev nD) : W3 m ρ c (Proc.devRef .tc main_v0_0)
    = k0_pay3 (m ((c : Thread nD τ).loc main_arg0)) (m ((c : Thread nD τ).loc main_arg1)) (m ((c : Thread nD τ).loc main_arg2)) :=
  calc W3 m ρ c (Proc.devRef .tc main_v0_0)
    _ = W2 m ρ c (Proc.devRef .tc main_v0_0) := W3_of_ne m ρ c main_v0_0 (by decide)
    _ = W1 m ρ c (Proc.devRef .tc main_v0_0) := reshape_keeps m ρ c main_v0_0 (by decide)
    _ = (dat0 (V0 m ρ) c).arrAt 9 cfg0.N := W1_arr m ρ c 9
    _ = _ := HeadsValue.array_9 (V0 m ρ) c

/-- The second class head when @main returns. -/
theorem head_ed (c : Dev nD) : W3 m ρ c (Proc.devRef .tc main_v0_1)
    = k0_pay4 (m ((c : Thread nD τ).loc main_arg0)) (m ((c : Thread nD τ).loc main_arg3)) (m ((c : Thread nD τ).loc main_arg4)) :=
  calc W3 m ρ c (Proc.devRef .tc main_v0_1)
    _ = W2 m ρ c (Proc.devRef .tc main_v0_1) := W3_of_ne m ρ c main_v0_1 (by decide)
    _ = W1 m ρ c (Proc.devRef .tc main_v0_1) := reshape_keeps m ρ c main_v0_1 (by decide)
    _ = (dat0 (V0 m ρ) c).arrAt 10 cfg0.N := W1_arr m ρ c 10
    _ = _ := HeadsValue.array_10 (V0 m ρ) c

/-- The per-sample five-vector the first region leaves. -/
theorem five_vector (c : Dev nD) : W1 m ρ c (Proc.devRef .tc main_v0_2)
    = k0_pay1 (k0_pay5 (m ((c : Thread nD τ).loc main_arg0)) (m ((c : Thread nD τ).loc main_arg5)) (m ((c : Thread nD τ).loc main_arg6))
        (m ((c : Thread nD τ).loc main_arg7))) (k0_pay6 (m ((c : Thread nD τ).loc main_arg8))) :=
  (W1_arr m ρ c 11).trans (HeadsValue.array_11 (V0 m ρ) c)

/-- What the second region reads: the five-vector viewed [32, 1, 5]. -/
theorem reshaped (c : Dev nD) :
    V2 m ρ c main_v1 = shapeCast S32x1x5 (W1 m ρ c (Proc.devRef .tc main_v0_2)) shapeCasts_S32x5_S32x1x5 := by
  show StableHlo.after hostOps1 (W1 m ρ c) (Proc.devRef .tc main_v1) = _
  after_results
  rfl

/-- The spatial result when @main returns: the planes of the reshaped five-vector. -/
theorem seg_out (c : Dev nD) : W3 m ρ c (Proc.devRef .tc main_v2)
    = SegValue.planes (shapeCast S32x1x5
        (k0_pay1 (k0_pay5 (m ((c : Thread nD τ).loc main_arg0)) (m ((c : Thread nD τ).loc main_arg5)) (m ((c : Thread nD τ).loc main_arg6))
          (m ((c : Thread nD τ).loc main_arg7))) (k0_pay6 (m ((c : Thread nD τ).loc main_arg8)))) shapeCasts_S32x5_S32x1x5) := by
  rw [← five_vector m ρ c, ← reshaped m ρ c]
  exact (W3_arr m ρ c 1).trans (SegValue.array (V2 m ρ) c)

end Cert.KernelIdeal.Fold

end
-- ==== Proof.DenseLaws.lean ====
/-
  Three facts about a dense layer read over the extended reals, none of which mentions a program.

  * A matrix product on the MXU into a zero accumulator, its operands first narrowed to bf16, is the host's
    `dot_general` of the un-narrowed operands: narrowing is the identity on extended reals, the zero accumulator adds
    nothing, and both products are the same sum over the contracted axis.
  * A bias row `b : [n]` viewed as `[1, n]` and repeated down `r` rows is the same `[r, n]` array whether it is built by a
    shape cast followed by a vector broadcast or by two `broadcast_in_dim`s: entry `(p, q)` is `b q` either way.
  * The zero the rectifier compares against is the same array whether a scalar zero is splat or a rank-0 zero tensor is
    broadcast.
-/
import Idealize.ShloMosaic.PureOps.Ideal
import Idealize.ShloMosaic.PureOps.Ideal.Laws
import Idealize.ShloMosaic.Lib.Pipeline.Value
import Idealize.ShloMosaic.Lib.ValueIdx

noncomputable section

namespace Cert.DenseLaws

open Idealize.ShloMosaic

/-- The MXU product of bf16-narrowed operands into a zero accumulator is the host's `dot_general`: entry `j` of both is
    `∑ k, lhs (row of j, k) * rhs (k, column of j)` over the extended reals. -/
theorem matmul_narrowed_zero_eq_dotGeneral {sl sr so : Shape} (d : DotDims sl sr so)
    (lhs : FVec Ideal sl .f32) (rhs : FVec Ideal sr .f32) (h1 : FTy.bf16.bits < FTy.f32.bits) (h2 : FTy.bf16.bits < FTy.f32.bits) :
    matmul d none (truncf .bf16 lhs h1) (truncf .bf16 rhs h2) (constant so .f32 0x00000000#32)
      = Host.dotGeneral d none lhs rhs := by
  funext j
  show FloatOps.matmul d none (truncf .bf16 lhs h1) (truncf .bf16 rhs h2) (constant so .f32 0x00000000#32) j
      = FloatOps.dotGeneral d none .single lhs rhs j
  rw [Ideal.matmul_constant_zero_apply, Ideal.dotGeneral_apply]
  rfl

/-- The bias row repeated down the rows: the kernel's `shape_cast` then `broadcast` and the host's two
    `broadcast_in_dim`s both put `b q` at `(p, q)`. -/
theorem bias_rows_eq {α : Type} (r n : Nat) (hn : n ≠ 1) (b : (⟨1, ![n]⟩ : Shape).Idx → α)
    (hc : (⟨1, ![n]⟩ : Shape).ShapeCasts ⟨2, ![1, n]⟩) (hb : (⟨2, ![1, n]⟩ : Shape).Broadcasts ⟨2, ![r, n]⟩)
    (h1 : (⟨1, ![n]⟩ : Shape).BroadcastsInDim ⟨2, ![1, n]⟩ ![1]) (h2 : (⟨2, ![1, n]⟩ : Shape).BroadcastsInDim ⟨2, ![r, n]⟩ ![0, 1]) :
    broadcastTo ⟨2, ![r, n]⟩ (shapeCast ⟨2, ![1, n]⟩ b hc) hb
      = broadcastInDim ⟨2, ![r, n]⟩ ![0, 1] h2 (broadcastInDim ⟨2, ![1, n]⟩ ![1] h1 b) := by
  funext i
  obtain ⟨p, q, rfl⟩ : ∃ (p : Fin r) (q : Fin n), i = ValueIdx.ix2 p q := ⟨i 0, i 1, ValueIdx.eq_ix2 i⟩
  have hl : broadcastTo ⟨2, ![r, n]⟩ (shapeCast ⟨2, ![1, n]⟩ b hc) hb (ValueIdx.ix2 p q) = b (ValueIdx.ix1 q) := by
    refine (broadcastTo_apply _ hb (ValueIdx.ix2 p q) (ValueIdx.ix2 (⟨0, Nat.one_pos⟩ : Fin 1) q) (fun a => ?_)).trans ?_
    · match a with
      | ⟨0, _⟩ => show 0 = if (1 : Nat) = 1 then 0 else _; rw [if_pos rfl]
      | ⟨1, _⟩ => show q.val = if n = 1 then 0 else q.val; rw [if_neg hn]
    · refine shapeCast_apply b hc _ (ValueIdx.ix1 q) ?_
      rw [Shape.rowMajor_val_one, Shape.rowMajor_val_two]
      show q.val = 0 * n + q.val
      omega
  have hr : broadcastInDim ⟨2, ![r, n]⟩ ![0, 1] h2 (broadcastInDim ⟨2, ![1, n]⟩ ![1] h1 b) (ValueIdx.ix2 p q) = b (ValueIdx.ix1 q) := by
    refine (broadcastInDim_apply _ h2 _ (ValueIdx.ix2 p q) (ValueIdx.ix2 (⟨0, Nat.one_pos⟩ : Fin 1) q) (fun a => ?_)).trans ?_
    · match a with
      | ⟨0, _⟩ => show 0 = if (1 : Nat) = 1 then 0 else _; rw [if_pos rfl]
      | ⟨1, _⟩ => show q.val = if n = 1 then 0 else q.val; rw [if_neg hn]
    · refine broadcastInDim_apply _ h1 b _ (ValueIdx.ix1 q) (fun a => ?_)
      match a with
      | ⟨0, _⟩ => show q.val = if n = 1 then 0 else q.val; rw [if_neg hn]
  rw [hl, hr]

/-- The rectifier's zero: a splat scalar zero and a broadcast rank-0 zero tensor are the same array. -/
theorem zeros_eq {F : FTy → Type} [FloatOps F] (s : Shape) (h : (⟨0, ![]⟩ : Shape).BroadcastsInDim s ![]) :
    (broadcast s (Scalar.ofBits (F := F) .f32 0x00000000#32) : FVec F s .f32)
      = broadcastInDim s ![] h (constant (F := F) ⟨0, ![]⟩ .f32 0x00000000#32) := by
  funext i
  exact (broadcastInDim_apply _ h (constant (F := F) ⟨0, ![]⟩ .f32 0x00000000#32) i (fun a => a.elim0) (fun a => a.elim0)).symm

end Cert.DenseLaws

end
-- ==== Proof.Bridge.lean ====
/-
  The kernel's three values are the reference's three stages, over the extended reals.

  Each dense layer of the kernel is a bf16-narrowed MXU product into a zero accumulator plus a bias row built by a shape
  cast and a vector broadcast; the reference's is the host's dot_general plus the same bias row built by two
  broadcast_in_dims. Over the extended reals the two products are one sum (narrowing is the identity), the two bias
  arrays are one array, and the rectifier compares against the same zero array with the same maximum. No law beyond
  these is needed: both sides then add the same two arrays entry by entry, in the same order, so nothing has to be
  finite. The spatial result repeats entry (b, q) of the five-vector over the plane (b, q, ·, ·) on both sides.
-/
import proofs.«175247_j5746666242651_1_alg».proof.Proof.DenseLaws
import proofs.«175247_j5746666242651_1_alg».proof.Proof.SegValue
import proofs.«175247_j5746666242651_1_alg».proof.Proof.Gen.ReferenceIdeal.Read

noncomputable section

namespace Cert.Bridge

open Idealize.ShloMosaic
open Idealize.ShloMosaic.ValueIdx (ix2 ix3 ix4)

/-- First class head: features · W_dr + b_dr on both sides. -/
theorem head_dr (x0 : Vec Ideal Cert.KernelIdeal.S32x1536 .f32) (x1 : Vec Ideal Cert.KernelIdeal.S1536x5 .f32) (x2 : Vec Ideal Cert.KernelIdeal.S5 .f32) :
    Cert.KernelIdeal.Gen.k0_pay3 (F := Ideal) x0 x1 x2 = Cert.ReferenceIdeal.Read.val_main_v3 (F := Ideal) x0 x1 x2 := by
  unfold Cert.KernelIdeal.Gen.k0_pay3 Cert.KernelIdeal.Gen.k0_pay2 Cert.ReferenceIdeal.Read.val_main_v3
    Cert.ReferenceIdeal.Read.val_main_v0 Cert.ReferenceIdeal.Read.val_main_v2 Cert.ReferenceIdeal.Read.val_main_v1
  dsimp only
  rw [Cert.DenseLaws.matmul_narrowed_zero_eq_dotGeneral, Cert.DenseLaws.bias_rows_eq 32 5 (by decide)]
  rfl

/-- Second class head: features · W_ed + b_ed on both sides. -/
theorem head_ed (x0 : Vec Ideal Cert.KernelIdeal.S32x1536 .f32) (x3 : Vec Ideal Cert.KernelIdeal.S1536x3 .f32) (x4 : Vec Ideal Cert.KernelIdeal.S3 .f32) :
    Cert.KernelIdeal.Gen.k0_pay4 (F := Ideal) x0 x3 x4 = Cert.ReferenceIdeal.Read.val_main_v7 (F := Ideal) x0 x3 x4 := by
  unfold Cert.KernelIdeal.Gen.k0_pay4 Cert.KernelIdeal.Gen.k0_pay2 Cert.ReferenceIdeal.Read.val_main_v7
    Cert.ReferenceIdeal.Read.val_main_v4 Cert.ReferenceIdeal.Read.val_main_v6 Cert.ReferenceIdeal.Read.val_main_v5
  dsimp only
  rw [Cert.DenseLaws.matmul_narrowed_zero_eq_dotGeneral, Cert.DenseLaws.bias_rows_eq 32 3 (by decide)]
  rfl

/-- The per-sample five-vector: max(features · W1 + b1, 0) · W2 + b2 on both sides. -/
theorem five_vector (x0 : Vec Ideal Cert.KernelIdeal.S32x1536 .f32) (x5 : Vec Ideal Cert.KernelIdeal.S1536x256 .f32) (x6 : Vec Ideal Cert.KernelIdeal.S256 .f32)
    (x7 : Vec Ideal Cert.KernelIdeal.S256x5 .f32) (x8 : Vec Ideal Cert.KernelIdeal.S5 .f32) :
    Cert.KernelIdeal.Gen.k0_pay1 (F := Ideal) (Cert.KernelIdeal.Gen.k0_pay5 x0 x5 x6 x7) (Cert.KernelIdeal.Gen.k0_pay6 x8)
      = Cert.ReferenceIdeal.Read.val_main_v16 (F := Ideal) x0 x5 x6 x7 x8 := by
  unfold Cert.KernelIdeal.Gen.k0_pay1 Cert.KernelIdeal.Gen.k0_pay5 Cert.KernelIdeal.Gen.k0_pay6 Cert.KernelIdeal.Gen.k0_pay2
    Cert.ReferenceIdeal.Read.val_main_v16 Cert.ReferenceIdeal.Read.val_main_v13 Cert.ReferenceIdeal.Read.val_main_v15
    Cert.ReferenceIdeal.Read.val_main_v14 Cert.ReferenceIdeal.Read.val_main_v12 Cert.ReferenceIdeal.Read.val_main_v11
    Cert.ReferenceIdeal.Read.val_main_v8 Cert.ReferenceIdeal.Read.val_main_v10 Cert.ReferenceIdeal.Read.val_main_v9
    Cert.ReferenceIdeal.Read.val_main_call0_v0 Cert.ReferenceIdeal.Read.val_main_call0_cst
  dsimp only
  rw [Cert.DenseLaws.matmul_narrowed_zero_eq_dotGeneral, Cert.DenseLaws.matmul_narrowed_zero_eq_dotGeneral,
    Cert.DenseLaws.bias_rows_eq 32 256 (by decide), Cert.DenseLaws.bias_rows_eq 32 5 (by decide),
    Cert.DenseLaws.zeros_eq Cert.ReferenceIdeal.S32x256 Cert.ReferenceIdeal.Facts₀.bcast_S_S32x256]
  rfl

/-- The spatial result: the planes of the five-vector viewed [32, 1, 5] are the five-vector broadcast over two new
    trailing axes; entry (b, q, u, v) of both is entry (b, q) of the five-vector. -/
theorem planes_eq {F : FTy → Type} [FloatOps F] (X : Vec F Cert.KernelIdeal.S32x5 .f32)
    (hc : Cert.KernelIdeal.S32x5.ShapeCasts Cert.KernelIdeal.S32x1x5)
    (h1 : (⟨2, ![32, 5]⟩ : Shape).BroadcastsInDim ⟨4, ![32, 5, 1, 1]⟩ ![0, 1])
    (h2 : (⟨4, ![32, 5, 1, 1]⟩ : Shape).BroadcastsInDim ⟨4, ![32, 5, 512, 512]⟩ ![0, 1, 2, 3]) :
    Cert.KernelIdeal.SegValue.planes (shapeCast Cert.KernelIdeal.S32x1x5 X hc)
      = broadcastInDim ⟨4, ![32, 5, 512, 512]⟩ ![0, 1, 2, 3] h2 (broadcastInDim ⟨4, ![32, 5, 1, 1]⟩ ![0, 1] h1 X) := by
  funext i
  obtain ⟨b, q, u, v, rfl⟩ : ∃ (b : Fin 32) (q : Fin 5) (u : Fin 512) (v : Fin 512), i = ix4 b q u v :=
    ⟨i 0, i 1, i 2, i 3, ValueIdx.eq_ix4 i⟩
  have hl : Cert.KernelIdeal.SegValue.planes (shapeCast Cert.KernelIdeal.S32x1x5 X hc) (ix4 b q u v) = X (ix2 b q) := by
    show shapeCast Cert.KernelIdeal.S32x1x5 X hc (ix3 b Cert.KernelIdeal.SegValue.z1 q) = X (ix2 b q)
    refine shapeCast_apply X hc _ (ix2 b q) ?_
    rw [Shape.rowMajor_val_two, Shape.rowMajor_val_three]
    show b.val * 5 + q.val = (b.val * 1 + 0) * 5 + q.val
    omega
  have hr : broadcastInDim ⟨4, ![32, 5, 512, 512]⟩ ![0, 1, 2, 3] h2 (broadcastInDim ⟨4, ![32, 5, 1, 1]⟩ ![0, 1] h1 X) (ix4 b q u v) = X (ix2 b q) := by
    refine (broadcastInDim_apply _ h2 _ (ix4 b q u v) (ix4 b q (⟨0, Nat.one_pos⟩ : Fin 1) (⟨0, Nat.one_pos⟩ : Fin 1)) (fun a => ?_)).trans ?_
    · match a with
      | ⟨0, _⟩ => show b.val = if (32 : Nat) = 1 then 0 else b.val; rw [if_neg (by decide)]
      | ⟨1, _⟩ => show q.val = if (5 : Nat) = 1 then 0 else q.val; rw [if_neg (by decide)]
      | ⟨2, _⟩ => show 0 = if (1 : Nat) = 1 then 0 else u.val; rw [if_pos rfl]
      | ⟨3, _⟩ => show 0 = if (1 : Nat) = 1 then 0 else v.val; rw [if_pos rfl]
    · refine broadcastInDim_apply _ h1 X _ (ix2 b q) (fun a => ?_)
      match a with
      | ⟨0, _⟩ => show b.val = if (32 : Nat) = 1 then 0 else b.val; rw [if_neg (by decide)]
      | ⟨1, _⟩ => show q.val = if (5 : Nat) = 1 then 0 else q.val; rw [if_neg (by decide)]
  rw [hl, hr]

/-- The spatial result of the kernel is the reference's last stage. -/
theorem seg_out (x0 : Vec Ideal Cert.KernelIdeal.S32x1536 .f32) (x5 : Vec Ideal Cert.KernelIdeal.S1536x256 .f32) (x6 : Vec Ideal Cert.KernelIdeal.S256 .f32)
    (x7 : Vec Ideal Cert.KernelIdeal.S256x5 .f32) (x8 : Vec Ideal Cert.KernelIdeal.S5 .f32) :
    Cert.KernelIdeal.SegValue.planes (shapeCast Cert.KernelIdeal.S32x1x5
        (Cert.KernelIdeal.Gen.k0_pay1 (F := Ideal) (Cert.KernelIdeal.Gen.k0_pay5 x0 x5 x6 x7) (Cert.KernelIdeal.Gen.k0_pay6 x8))
        Cert.KernelIdeal.Facts₀.shapeCasts_S32x5_S32x1x5)
      = Cert.ReferenceIdeal.Read.val_main_v18 (F := Ideal) x0 x5 x6 x7 x8 := by
  rw [five_vector, planes_eq _ _ Cert.ReferenceIdeal.Facts₀.bcast_S32x5_S32x5x1x1_0_1 Cert.ReferenceIdeal.Facts₀.bcast_S32x5x1x1_S32x5x512x512_0_1_2_3]
  rfl

end Cert.Bridge

end
-- ==== Proof.lean ====
/-
  Three dense heads and a spatial broadcast: the kernel against its jnp reference, over the extended reals.

  The kernel computes, in one single-point region, dr = x · W_dr + b_dr, ed = x · W_ed + b_ed and the five-vector
  s = max(x · W1 + b1, 0) · W2 + b2 (each product on the MXU over bf16-narrowed operands into a zero accumulator), then,
  after a reshape of s to [32, 1, 5], a second region of one point per sample writes s (b, q) over the whole plane
  (b, q, ·, ·) of the [32, 5, 512, 512] result. The reference computes the same three arrays with the host's dot_general,
  broadcast_in_dim and maximum.

  Over the extended reals narrowing is the identity and a product into a zero accumulator is the plain sum, so each of
  the kernel's three values is the reference's stage for it, as whole arrays (Bridge); what each result buffer holds
  when the kernel's @main returns is read through the fold over its segments (Fold, over the per-region values of
  HeadsValue and SegValue); and the reference's run is read back by its stages. The three frames are the programs' runs
  with the values dropped; the idealization rewrote nothing, so preserves is trivial.
-/
import proofs.«175247_j5746666242651_1_alg».proof.Defs
import proofs.«175247_j5746666242651_1_alg».proof.Proof.Gen.Kernel
import proofs.«175247_j5746666242651_1_alg».proof.Proof.Gen.Kernel.Skeleton
import proofs.«175247_j5746666242651_1_alg».proof.Proof.Gen.Kernel.Launch
import proofs.«175247_j5746666242651_1_alg».proof.Proof.Gen.Kernel.Points
import proofs.«175247_j5746666242651_1_alg».proof.Proof.Gen.Kernel.Frame
import proofs.«175247_j5746666242651_1_alg».proof.Proof.Gen.KernelIdeal
import proofs.«175247_j5746666242651_1_alg».proof.Proof.Gen.KernelIdeal.Skeleton
import proofs.«175247_j5746666242651_1_alg».proof.Proof.Gen.KernelIdeal.Launch
import proofs.«175247_j5746666242651_1_alg».proof.Proof.Gen.KernelIdeal.Points
import proofs.«175247_j5746666242651_1_alg».proof.Proof.Gen.KernelIdeal.Frame
import proofs.«175247_j5746666242651_1_alg».proof.Proof.Gen.ReferenceIdeal
import proofs.«175247_j5746666242651_1_alg».proof.Proof.Gen.ReferenceIdeal.Run
import proofs.«175247_j5746666242651_1_alg».proof.Proof.Gen.ReferenceIdeal.Read
import proofs.«175247_j5746666242651_1_alg».proof.Proof.Gen.Pre_finite_inputs
import proofs.«175247_j5746666242651_1_alg».proof.Proof.KernelResults
import proofs.«175247_j5746666242651_1_alg».proof.Proof.Fold
import proofs.«175247_j5746666242651_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- Both programs end with the reference's three stages of the (agreeing) argument arrays in their result buffers. -/
theorem algebraic : Cert.algebraic_KernelIdeal_ReferenceIdeal := by
  intro m ρ m' ρ' _ hagree
  refine ⟨fun c => Cert.ReferenceIdeal.Read.val_main_v3 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
      fun c => Cert.ReferenceIdeal.Read.val_main_v7 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)),
      fun c => Cert.ReferenceIdeal.Read.val_main_v18 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.Results.run (F := Ideal) m ρ)
    obtain ⟨h0, h1, h2, hargs⟩ := h c
    exact ⟨h0.trans ((Cert.KernelIdeal.Fold.head_dr m ρ c).trans (Cert.Bridge.head_dr _ _ _)),
      h1.trans ((Cert.KernelIdeal.Fold.head_ed m ρ c).trans (Cert.Bridge.head_ed _ _ _)),
      h2.trans ((Cert.KernelIdeal.Fold.seg_out m ρ c).trans (Cert.Bridge.seg_out _ _ _ _ _)), hargs⟩
  · refine (θ_run Cert.ReferenceIdeal.defs _ _).mono (fun r h c => ?_) (Cert.ReferenceIdeal.Value.run (F := Ideal) m' ρ')
    obtain ⟨h0, h1, h2, hargs⟩ := h c
    obtain ⟨e0, e1, e2, e3, e4, e5, e6, e7, e8⟩ := hagree c
    refine ⟨h0.trans ?_, h1.trans ?_, h2.trans ?_, hargs⟩
    · rw [Cert.ReferenceIdeal.Read.val_main_v3_eq, e0, e1, e2]
    · rw [Cert.ReferenceIdeal.Read.val_main_v7_eq, e0, e3, e4]
    · rw [Cert.ReferenceIdeal.Read.val_main_v18_eq, e0, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
